-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128x64 .f32) (main_arg4 : FVec F S64 .f32) (main_arg5 : IVec S800000 32) (main_arg6 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S800000x128 : Shape := ⟨2, ![800000, 128]⟩
abbrev S1x128 : Shape := ⟨2, ![1, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 62
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S1x64, .f32⟩
  | .hbm, ⟨61, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128x128, .f32⟩
  | .local _ .vmem, ⟨11, _⟩ => ⟨S1x128, .f32⟩
  | .local _ .vmem, ⟨12, _⟩ => ⟨S5000x1, .f32⟩
  | .local _ .vmem, ⟨13, _⟩ => ⟨S5000x1, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_c_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S50000x1.size a
  hwx1_4 : ∀ i : grid1.Coords, EltTy.bits .f32 = 32 ∨ (Rect.block (s := S50000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 79
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x64, .f32⟩
  | .hbm, ⟨73, _⟩ => ⟨S1x64, .f32⟩
  | .hbm, ⟨74, _⟩ => ⟨S50000x64, .f32⟩
  | .hbm, ⟨75, _⟩ => ⟨S50000x64, .f32⟩
  | .hbm, ⟨76, _⟩ => ⟨S_, .f32⟩
  | .hbm, ⟨77, _⟩ => ⟨S50000x64, .f32⟩
  | .hbm, ⟨78, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_cst : Ref sig .tc := ⟨.hbm, 52, rfl⟩
abbrev main_call0_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_c_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Stages.lean ====
/-
  The two graph-convolution layers, stage by stage, as functions of whole arrays read index by index over the
  extended reals. With n_out, n_in the two degree norms (one per node, as a column), A the edge aggregation
  (gather the source rows, add them into the destination rows) and ReLU the maximum with zero:

    scaleRows x n        [r, q] = x[r, q] · n[r]
    hiddenLayer a …      [r, q] = ReLU( Σ_k (a[r, k] · n_in[r]) · W[k, q] + b[q] ) · n_out[r]
    outputLayer a …      [r, q] = ReLU( Σ_k (a[r, k] · n_in[r]) · W[k, q] + b[q] )

  The network is  outputLayer (A (hiddenLayer (A (scaleRows h n_out)) …)) … ; the aggregation A is the same host
  computation in both programs and is never opened. Nothing here needs the inputs to be finite: both programs
  form the same sums of the same products in the same nesting, so no distributivity is used.
-/
import Idealize.ShloMosaic.PureOps.Ideal
import Idealize.ShloMosaic.Lib.ValueIdx

noncomputable section

namespace GraphConv

open Idealize.ShloMosaic Idealize.ShloMosaic.ValueIdx

/-- node features, 128 wide -/
abbrev Feat128 : Shape := ⟨2, ![50000, 128]⟩
/-- node features, 64 wide -/
abbrev Feat64 : Shape := ⟨2, ![50000, 64]⟩
/-- one number per node, as a column -/
abbrev NodeCol : Shape := ⟨2, ![50000, 1]⟩
abbrev Wt128 : Shape := ⟨2, ![128, 128]⟩
abbrev Wt64 : Shape := ⟨2, ![128, 64]⟩
abbrev Bias128 : Shape := ⟨2, ![1, 128]⟩
abbrev Bias64 : Shape := ⟨2, ![1, 64]⟩

/-- The zero every ReLU compares with, as both programs spell it. -/
abbrev zeroF : EReal := Ideal.ofBits .f32 0x00000000#32

/-- Every row of `x` multiplied by its node's norm. -/
def scaleRows (x : FVec Ideal Feat128 .f32) (n : FVec Ideal NodeCol .f32) : FVec Ideal Feat128 .f32 :=
  fun i => x i * n (ix2 (i 0) (0 : Fin 1))

/-- The first layer after its aggregation `a`: rows scaled by `nin`, times `w`, plus `b`, ReLU, rows scaled by `nout`. -/
def hiddenLayer (a : FVec Ideal Feat128 .f32) (nin : FVec Ideal NodeCol .f32) (w : FVec Ideal Wt128 .f32)
    (b : FVec Ideal Bias128 .f32) (nout : FVec Ideal NodeCol .f32) : FVec Ideal Feat128 .f32 :=
  fun i => max ((∑ k : Fin 128, (a (ix2 (i 0) k) * nin (ix2 (i 0) (0 : Fin 1))) * w (ix2 k (i 1))) + b (ix2 (0 : Fin 1) (i 1))) zeroF
    * nout (ix2 (i 0) (0 : Fin 1))

/-- The second layer after its aggregation `a`: rows scaled by `nin`, times `w`, plus `b`, ReLU. -/
def outputLayer (a : FVec Ideal Feat128 .f32) (nin : FVec Ideal NodeCol .f32) (w : FVec Ideal Wt64 .f32)
    (b : FVec Ideal Bias64 .f32) : FVec Ideal Feat64 .f32 :=
  fun i => max ((∑ k : Fin 128, (a (ix2 (i 0) k) * nin (ix2 (i 0) (0 : Fin 1))) * w (ix2 k (i 1))) + b (ix2 (0 : Fin 1) (i 1))) zeroF

end GraphConv

end
-- ==== Proof.LibCols.lean ====
/-
  A column broadcast over many columns, read at an index: a `[a, 1]` array broadcast to `[a, b]` holds, at `(p, c)`,
  the column's entry of row `p`. (The companion of the library's row form, a `[1, b]` array broadcast to `[a, b]`.)
-/
import Idealize.ShloMosaic.Lib.Pipeline.Value
import Idealize.ShloMosaic.Lib.ValueIdx

namespace GraphConv

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A `[a, 1]` array spread by `broadcast_in_dim` along `[0, 1]` to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1])
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end GraphConv
-- ==== Proof.ScaleRegion.lean ====
/-
  The first pallas_call (rows of the features times the out-degree norm), read as a value: whatever the buffers
  hold when the region is entered, its output array ends at `scaleRows` of its two input arrays. Point t of the
  grid handles rows 5000·t … 5000·t + 4999; the ten blocks tile the 50000 rows.
-/
import proofs.«170609_j23914377904381_1_alg».proof.Proof.Gen.KernelIdeal.Frame
import proofs.«170609_j23914377904381_1_alg».proof.Proof.Stages
import proofs.«170609_j23914377904381_1_alg».proof.Proof.LibCols
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ScaleRegion

open Cert.KernelIdeal Cert.KernelIdeal.Gen
open Idealize.ShloMosaic Idealize.ShloMosaic.TcCoe Idealize.ShloMosaic.ValueIdx Idealize.SL.Sem
open Idealize.ShloMosaic.Pipeline (Dat)
open GraphConv

variable (V : (c : Dev nD) → (b : Ref sig .tc) → Buf (Elt Ideal) ((c : Thread nD τ).loc b))

theorem off_zero : (![0, 0] : Fin 2 → Nat) = fun _ => 0 := funext fun a => by fin_cases a <;> rfl

/-- The two arrays the region reads, as it finds them, at their literal types. -/
abbrev feats (c : Dev nD) : FVec Ideal Feat128 .f32 := V c main_arg0
abbrev norms (c : Dev nD) : FVec Ideal NodeCol .f32 := V c main_v13

/-- The body's stored value at an index of the block: the feature times the norm of its row. -/
theorem payload_at (x0 : Vec Ideal S5000x128 .f32) (x1 : Vec Ideal S5000x1 .f32) (j : S5000x128.Idx) :
    k0_pay1 x0 x1 j = x0 j * x1 (ix2 (j 0) (0 : Fin 1)) := by
  obtain ⟨p, q, rfl⟩ : ∃ (p : Fin 5000) (q : Fin 128), j = ix2 p q := ⟨j 0, j 1, eq_ix2 j⟩
  unfold k0_pay1
  show x0 (ix2 p q) * broadcastTo S5000x128 (shapeCast S5000x1 x1 shapeCasts_S5000x1_S5000x1) broadcasts_S5000x1_S5000x128 (ix2 p q) = _
  rw [broadcastTo_a1_ab_apply, shapeCast_self]

/-- The three windows move together down the rows: block index = grid point, and the column block is always 0. -/
theorem idx_rel : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (1 : Fin 2) = 0
    ∧ win0_2.index t (0 : Fin 2) ≤ 9 :=
  (by decide +kernel : ∀ t : Fin grid0.N, _)

/-- Every row block is some point's. -/
theorem idx_onto : ∀ (q0 : Fin 10), ∃ t : Fin cfg0.N, win0_2.index t = ![q0.val, 0] :=
  (by decide +kernel : ∀ (q0 : Fin 10), ∃ t : Fin grid0.N, win0_2.index t = ![q0.val, 0])

/-- What point `t` writes back is block `t` of the row-scaled array. -/
theorem flushed_eq (c : Dev nD) (t : Fin cfg0.N) :
    (dat0 V c).flushed 2 t = ((cfg0.win 2).blk t).view.read (Elt Ideal) (scaleRows (feats V c) (norms V c)) := by
  show (cfg0.win 2).cut (grid0.coords t) ((dat0 V c).after 2 t) = _
  rw [after0_2]
  unfold out0_2
  rw [View.canon_unit_zero off_zero]
  simp only [View.ld_unit_zero (S := S5000x128) off_zero, View.ld_unit_zero (S := S5000x1) off_zero]
  obtain ⟨e0, e1, e2, e3, e4, e5⟩ := idx_rel t
  funext j
  refine (payload_at (iblk0 V c 0 t) (iblk0 V c 1 t) j).trans ?_
  show feats V c (((cfg0.win 0).blk t).view.emb j) * norms V c (((cfg0.win 1).blk t).view.emb (ix2 (j 0) (0 : Fin 1)))
    = feats V c (((cfg0.win 2).blk t).view.emb j) * norms V c (ix2 ((((cfg0.win 2).blk t).view.emb j) 0) (0 : Fin 1))
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb (ix2 (j 0) (0 : Fin 1)) = ix2 ((((cfg0.win 2).blk t).view.emb j) 0) (0 : Fin 1) := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 1 + 1 * 0 = 0; omega
  rw [h0, h1]
  rfl

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v17).slice (win0_2.rect t)).set ↔ _
  rw [View.set_slice_whole, Rect.mem_set_unit]
  exact Iff.rfl

/-- The ten row blocks cover the array: row r lies in block r / 5000. -/
theorem covered (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The region's output array after its ten points: the features, each row times its node's norm. -/
theorem value (c : Dev nD) : (dat0 V c).arrAt 2 cfg0.N = scaleRows (feats V c) (norms V c) :=
  (dat0 V c).arrAt_eq_of_cover 2 _ (fun t _ => flushed_eq V c t) covered

end Cert.KernelIdeal.ScaleRegion

end
-- ==== Proof.HiddenRegion.lean ====
/-
  The second pallas_call (the first layer's dense part), read as a value: whatever the buffers hold when the region is
  entered, its output array ends at `hiddenLayer` of its five input arrays. Point t handles rows 5000·t … 5000·t + 4999
  against the whole weight matrix and bias; the row block's matrix product is, row by row, the whole array's.
-/
import proofs.«170609_j23914377904381_1_alg».proof.Proof.Gen.KernelIdeal.Frame
import proofs.«170609_j23914377904381_1_alg».proof.Proof.Stages
import proofs.«170609_j23914377904381_1_alg».proof.Proof.LibCols
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HiddenRegion

open Cert.KernelIdeal Cert.KernelIdeal.Gen
open Idealize.ShloMosaic Idealize.ShloMosaic.TcCoe Idealize.ShloMosaic.ValueIdx Idealize.SL.Sem
open Idealize.ShloMosaic.Pipeline (Dat)
open GraphConv

variable (V : (c : Dev nD) → (b : Ref sig .tc) → Buf (Elt Ideal) ((c : Thread nD τ).loc b))

theorem off_zero : (![0, 0] : Fin 2 → Nat) = fun _ => 0 := funext fun a => by fin_cases a <;> rfl

/-- The arrays the region reads, as it finds them, at their literal types. -/
abbrev agg (c : Dev nD) : FVec Ideal Feat128 .f32 := V c main_v27
abbrev nin (c : Dev nD) : FVec Ideal NodeCol .f32 := V c main_v16
abbrev wt (c : Dev nD) : FVec Ideal Wt128 .f32 := V c main_arg1
abbrev bias (c : Dev nD) : FVec Ideal Bias128 .f32 := V c main_v28
abbrev nout (c : Dev nD) : FVec Ideal NodeCol .f32 := V c main_v13

/-! ## The matrix product of a row block, at an index -/

theorem lhs_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Over the extended reals the kernel's matrix product into a zero accumulator is, at `(p, q)`, the sum over the 128
    shared indices `k` of left `(p, k)` times right `(k, q)`. -/
theorem matmul_at (l : FVec Ideal S5000x128 .bf16) (rr : FVec Ideal S128x128 .bf16) (p : Fin 5000) (q : Fin 128) :
    matmul dot_S5000x128_S128x128_S5000x128_1_0_0_1_n_n none l rr (constant S5000x128 .f32 0x00000000#32) (ix2 p q) = ∑ k : Fin 128, l (ix2 p k) * rr (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## The body's stored value at an index of the block -/

theorem payload_ix (v0 : Vec Ideal S5000x128 .f32) (v2 : Vec Ideal S5000x1 .f32) (v7 : Vec Ideal S128x128 .f32) (v10 : Vec Ideal S1x128 .f32) (v16 : Vec Ideal S5000x1 .f32)
    (p : Fin 5000) (q : Fin 128) :
    k1_pay1 v0 v2 v7 v10 v16 (ix2 p q)
      = max ((∑ k : Fin 128, (v0 (ix2 p k) * v2 (ix2 p (0 : Fin 1))) * v7 (ix2 k q)) + v10 (ix2 (0 : Fin 1) q)) zeroF
      * v16 (ix2 p (0 : Fin 1)) := by
  unfold k1_pay1
  simp only [mulf_apply, addf_apply, maximumf_apply, broadcast_apply]
  rw [matmul_at, broadcastTo_1b_ab_apply, broadcastTo_a1_ab_apply]
  simp only [truncf_apply, mulf_apply, shapeCast_self, broadcastTo_a1_ab_apply]
  rfl

theorem payload_at (v0 : Vec Ideal S5000x128 .f32) (v2 : Vec Ideal S5000x1 .f32) (v7 : Vec Ideal S128x128 .f32) (v10 : Vec Ideal S1x128 .f32) (v16 : Vec Ideal S5000x1 .f32)
    (j : S5000x128.Idx) :
    k1_pay1 v0 v2 v7 v10 v16 j
      = max ((∑ k : Fin 128, (v0 (ix2 (j 0) k) * v2 (ix2 (j 0) (0 : Fin 1))) * v7 (ix2 k (j 1))) + v10 (ix2 (0 : Fin 1) (j 1))) zeroF
      * v16 (ix2 (j 0) (0 : Fin 1)) := by
  obtain ⟨p, q, rfl⟩ : ∃ (p : Fin 5000) (q : Fin 128), j = ix2 p q := ⟨j 0, j 1, eq_ix2 j⟩
  exact payload_ix v0 v2 v7 v10 v16 p q

/-! ## From blocks to the array -/

/-- The row windows move together down the rows (block index = grid point); the weights and the bias stay put. -/
theorem idx_rel : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = win1_5.index t (0 : Fin 2)
    ∧ win1_4.index t (1 : Fin 2) = 0
    ∧ win1_5.index t (1 : Fin 2) = 0
    ∧ win1_5.index t (0 : Fin 2) ≤ 9 :=
  (by decide +kernel : ∀ t : Fin grid1.N, _)

/-- Every row block is some point's. -/
theorem idx_onto : ∀ (q0 : Fin 10), ∃ t : Fin cfg1.N, win1_5.index t = ![q0.val, 0] :=
  (by decide +kernel : ∀ (q0 : Fin 10), ∃ t : Fin grid1.N, win1_5.index t = ![q0.val, 0])

/-- What point `t` writes back is block `t` of the layer's whole-array function of the entry arrays. -/
theorem flushed_eq (c : Dev nD) (t : Fin cfg1.N) :
    (dat1 V c).flushed 5 t = ((cfg1.win 5).blk t).view.read (Elt Ideal) (hiddenLayer (agg V c) (nin V c) (wt V c) (bias V c) (nout V c)) := by
  show (cfg1.win 5).cut (grid1.coords t) ((dat1 V c).after 5 t) = _
  rw [after1_5]
  unfold out1_5
  rw [View.canon_unit_zero off_zero]
  simp only [View.ld_unit_zero (S := S5000x128) off_zero, View.ld_unit_zero (S := S5000x1) off_zero,
    View.ld_unit_zero (S := S128x128) off_zero, View.ld_unit_zero (S := S1x128) off_zero]
  obtain ⟨e0, e1, e2, e3, e4, e5, e6, e7, e8, e9, e10, e11⟩ := idx_rel t
  funext j
  refine (payload_at (iblk1 V c 0 t) (iblk1 V c 1 t) (iblk1 V c 2 t) (iblk1 V c 3 t) (iblk1 V c 4 t) j).trans ?_
  show max ((∑ k : Fin 128, (agg V c (((cfg1.win 0).blk t).view.emb (ix2 (j 0) k)) * nin V c (((cfg1.win 1).blk t).view.emb (ix2 (j 0) (0 : Fin 1))))
        * wt V c (((cfg1.win 2).blk t).view.emb (ix2 k (j 1)))) + bias V c (((cfg1.win 3).blk t).view.emb (ix2 (0 : Fin 1) (j 1)))) zeroF
      * nout V c (((cfg1.win 4).blk t).view.emb (ix2 (j 0) (0 : Fin 1)))
    = max ((∑ k : Fin 128, (agg V c (ix2 ((((cfg1.win 5).blk t).view.emb j) 0) k) * nin V c (ix2 ((((cfg1.win 5).blk t).view.emb j) 0) (0 : Fin 1)))
        * wt V c (ix2 k ((((cfg1.win 5).blk t).view.emb j) 1))) + bias V c (ix2 (0 : Fin 1) ((((cfg1.win 5).blk t).view.emb j) 1))) zeroF
      * nout V c (ix2 ((((cfg1.win 5).blk t).view.emb j) 0) (0 : Fin 1))
  have h0 : ∀ k : Fin 128, ((cfg1.win 0).blk t).view.emb (ix2 (j 0) k) = ix2 ((((cfg1.win 5).blk t).view.emb j) 0) k := fun k => by
    funext a; apply Fin.ext
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  have h1 : ((cfg1.win 1).blk t).view.emb (ix2 (j 0) (0 : Fin 1)) = ix2 ((((cfg1.win 5).blk t).view.emb j) 0) (0 : Fin 1) := by
    funext a; apply Fin.ext
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 1 + 1 * 0 = 0; omega
  have h2 : ∀ k : Fin 128, ((cfg1.win 2).blk t).view.emb (ix2 k (j 1)) = ix2 k ((((cfg1.win 5).blk t).view.emb j) 1) := fun k => by
    funext a; apply Fin.ext
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  have h3 : ((cfg1.win 3).blk t).view.emb (ix2 (0 : Fin 1) (j 1)) = ix2 (0 : Fin 1) ((((cfg1.win 5).blk t).view.emb j) 1) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_5.index t (1 : Fin 2) * 128 + 1 * (j 1).val; omega
  have h4 : ((cfg1.win 4).blk t).view.emb (ix2 (j 0) (0 : Fin 1)) = ix2 ((((cfg1.win 5).blk t).view.emb j) 0) (0 : Fin 1) := by
    funext a; apply Fin.ext
    match a with
    | ⟨0, _⟩ => show win1_4.index t (0 : Fin 2) * 5000 + 1 * (j 0).val = win1_5.index t (0 : Fin 2) * 5000 + 1 * (j 0).val; omega
    | ⟨1, _⟩ => show win1_4.index t (1 : Fin 2) * 1 + 1 * 0 = 0; omega
  simp only [h0, h1, h2, h3, h4]
  rfl

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v29).slice (win1_5.rect t)).set ↔ _
  rw [View.set_slice_whole, Rect.mem_set_unit]
  exact Iff.rfl

/-- The ten row blocks cover the array: row r lies in block r / 5000. -/
theorem covered (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The region's output array after its ten points: the first layer of its entry arrays. -/
theorem value (c : Dev nD) : (dat1 V c).arrAt 5 cfg1.N = hiddenLayer (agg V c) (nin V c) (wt V c) (bias V c) (nout V c) :=
  (dat1 V c).arrAt_eq_of_cover 5 _ (fun t _ => flushed_eq V c t) covered

end Cert.KernelIdeal.HiddenRegion

end
-- ==== Proof.OutputRegion.lean ====
/-
  The third pallas_call (the second layer's dense part), read as a value: whatever the buffers hold when the region is
  entered, its output array ends at `outputLayer` of its four input arrays. Point t handles rows 5000·t … 5000·t + 4999
  against the whole weight matrix and bias; the row block's matrix product is, row by row, the whole array's.
-/
import proofs.«170609_j23914377904381_1_alg».proof.Proof.Gen.KernelIdeal.Frame
import proofs.«170609_j23914377904381_1_alg».proof.Proof.Stages
import proofs.«170609_j23914377904381_1_alg».proof.Proof.LibCols
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.OutputRegion

open Cert.KernelIdeal Cert.KernelIdeal.Gen
open Idealize.ShloMosaic Idealize.ShloMosaic.TcCoe Idealize.ShloMosaic.ValueIdx Idealize.SL.Sem
open Idealize.ShloMosaic.Pipeline (Dat)
open GraphConv

variable (V : (c : Dev nD) → (b : Ref sig .tc) → Buf (Elt Ideal) ((c : Thread nD τ).loc b))

theorem off_zero : (![0, 0] : Fin 2 → Nat) = fun _ => 0 := funext fun a => by fin_cases a <;> rfl

/-- The arrays the region reads, as it finds them, at their literal types. -/
abbrev agg (c : Dev nD) : FVec Ideal Feat128 .f32 := V c main_v39
abbrev nin (c : Dev nD) : FVec Ideal NodeCol .f32 := V c main_v16
abbrev wt (c : Dev nD) : FVec Ideal Wt64 .f32 := V c main_arg3
abbrev bias (c : Dev nD) : FVec Ideal Bias64 .f32 := V c main_v40

/-! ## The matrix product of a row block, at an index -/

theorem lhs_0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs_0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs_1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Over the extended reals the kernel's matrix product into a zero accumulator is, at `(p, q)`, the sum over the 128
    shared indices `k` of left `(p, k)` times right `(k, q)`. -/
theorem matmul_at (l : FVec Ideal S5000x128 .bf16) (rr : FVec Ideal S128x64 .bf16) (p : Fin 5000) (q : Fin 64) :
    matmul dot_S5000x128_S128x64_S5000x64_1_0_0_1_n_n none l rr (constant S5000x64 .f32 0x00000000#32) (ix2 p q) = ∑ k : Fin 128, l (ix2 p k) * rr (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## The body's stored value at an index of the block -/

theorem payload_ix (v0 : Vec Ideal S5000x128 .f32) (v2 : Vec Ideal S5000x1 .f32) (v7 : Vec Ideal S128x64 .f32) (v10 : Vec Ideal S1x64 .f32)
    (p : Fin 5000) (q : Fin 64) :
    k2_pay1 v0 v2 v7 v10 (ix2 p q)
      = max ((∑ k : Fin 128, (v0 (ix2 p k) * v2 (ix2 p (0 : Fin 1))) * v7 (ix2 k q)) + v10 (ix2 (0 : Fin 1) q)) zeroF := by
  unfold k2_pay1
  simp only [mulf_apply, addf_apply, maximumf_apply, broadcast_apply]
  rw [matmul_at, broadcastTo_1b_ab_apply]
  simp only [truncf_apply, mulf_apply, shapeCast_self, broadcastTo_a1_ab_apply]
  rfl

theorem payload_at (v0 : Vec Ideal S5000x128 .f32) (v2 : Vec Ideal S5000x1 .f32) (v7 : Vec Ideal S128x64 .f32) (v10 : Vec Ideal S1x64 .f32)
    (j : S5000x64.Idx) :
    k2_pay1 v0 v2 v7 v10 j
      = max ((∑ k : Fin 128, (v0 (ix2 (j 0) k) * v2 (ix2 (j 0) (0 : Fin 1))) * v7 (ix2 k (j 1))) + v10 (ix2 (0 : Fin 1) (j 1))) zeroF := by
  obtain ⟨p, q, rfl⟩ : ∃ (p : Fin 5000) (q : Fin 64), j = ix2 p q := ⟨j 0, j 1, eq_ix2 j⟩
  exact payload_ix v0 v2 v7 v10 p q

/-! ## From blocks to the array -/

/-- The row windows move together down the rows (block index = grid point); the weights and the bias stay put. -/
theorem idx_rel : ∀ t : Fin cfg2.N, win2_0.index t (0 : Fin 2) = win2_4.index t (0 : Fin 2)
    ∧ win2_0.index t (1 : Fin 2) = 0
    ∧ win2_1.index t (0 : Fin 2) = win2_4.index t (0 : Fin 2)
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (1 : Fin 2) = 0
    ∧ win2_4.index t (0 : Fin 2) ≤ 9 :=
  (by decide +kernel : ∀ t : Fin grid2.N, _)

/-- Every row block is some point's. -/
theorem idx_onto : ∀ (q0 : Fin 10), ∃ t : Fin cfg2.N, win2_4.index t = ![q0.val, 0] :=
  (by decide +kernel : ∀ (q0 : Fin 10), ∃ t : Fin grid2.N, win2_4.index t = ![q0.val, 0])

/-- What point `t` writes back is block `t` of the layer's whole-array function of the entry arrays. -/
theorem flushed_eq (c : Dev nD) (t : Fin cfg2.N) :
    (dat2 V c).flushed 4 t = ((cfg2.win 4).blk t).view.read (Elt Ideal) (outputLayer (agg V c) (nin V c) (wt V c) (bias V c)) := by
  show (cfg2.win 4).cut (grid2.coords t) ((dat2 V c).after 4 t) = _
  rw [after2_4]
  unfold out2_4
  rw [View.canon_unit_zero off_zero]
  simp only [View.ld_unit_zero (S := S5000x128) off_zero, View.ld_unit_zero (S := S5000x1) off_zero,
    View.ld_unit_zero (S := S128x64) off_zero, View.ld_unit_zero (S := S1x64) off_zero]
  obtain ⟨e0, e1, e2, e3, e4, e5, e6, e7, e8, e9⟩ := idx_rel t
  funext j
  refine (payload_at (iblk2 V c 0 t) (iblk2 V c 1 t) (iblk2 V c 2 t) (iblk2 V c 3 t) j).trans ?_
  show max ((∑ k : Fin 128, (agg V c (((cfg2.win 0).blk t).view.emb (ix2 (j 0) k)) * nin V c (((cfg2.win 1).blk t).view.emb (ix2 (j 0) (0 : Fin 1))))
        * wt V c (((cfg2.win 2).blk t).view.emb (ix2 k (j 1)))) + bias V c (((cfg2.win 3).blk t).view.emb (ix2 (0 : Fin 1) (j 1)))) zeroF
    = max ((∑ k : Fin 128, (agg V c (ix2 ((((cfg2.win 4).blk t).view.emb j) 0) k) * nin V c (ix2 ((((cfg2.win 4).blk t).view.emb j) 0) (0 : Fin 1)))
        * wt V c (ix2 k ((((cfg2.win 4).blk t).view.emb j) 1))) + bias V c (ix2 (0 : Fin 1) ((((cfg2.win 4).blk t).view.emb j) 1))) zeroF
  have h0 : ∀ k : Fin 128, ((cfg2.win 0).blk t).view.emb (ix2 (j 0) k) = ix2 ((((cfg2.win 4).blk t).view.emb j) 0) k := fun k => by
    funext a; apply Fin.ext
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 128 + 1 * k.val = k.val; omega
  have h1 : ((cfg2.win 1).blk t).view.emb (ix2 (j 0) (0 : Fin 1)) = ix2 ((((cfg2.win 4).blk t).view.emb j) 0) (0 : Fin 1) := by
    funext a; apply Fin.ext
    match a with
    | ⟨0, _⟩ => show win2_1.index t (0 : Fin 2) * 5000 + 1 * (j 0).val = win2_4.index t (0 : Fin 2) * 5000 + 1 * (j 0).val; omega
    | ⟨1, _⟩ => show win2_1.index t (1 : Fin 2) * 1 + 1 * 0 = 0; omega
  have h2 : ∀ k : Fin 128, ((cfg2.win 2).blk t).view.emb (ix2 k (j 1)) = ix2 k ((((cfg2.win 4).blk t).view.emb j) 1) := fun k => by
    funext a; apply Fin.ext
    match a with
    | ⟨0, _⟩ => show win2_2.index t (0 : Fin 2) * 128 + 1 * k.val = k.val; omega
    | ⟨1, _⟩ => show win2_2.index t (1 : Fin 2) * 64 + 1 * (j 1).val = win2_4.index t (1 : Fin 2) * 64 + 1 * (j 1).val; omega
  have h3 : ((cfg2.win 3).blk t).view.emb (ix2 (0 : Fin 1) (j 1)) = ix2 (0 : Fin 1) ((((cfg2.win 4).blk t).view.emb j) 1) := by
    funext a; apply Fin.ext
    match a with
    | ⟨0, _⟩ => show win2_3.index t (0 : Fin 2) * 1 + 1 * 0 = 0; omega
    | ⟨1, _⟩ => show win2_3.index t (1 : Fin 2) * 64 + 1 * (j 1).val = win2_4.index t (1 : Fin 2) * 64 + 1 * (j 1).val; omega
  simp only [h0, h1, h2, h3]
  rfl

/-- An index of the array is in point `t`'s block iff each coordinate is in the block's range on its axis. -/
theorem mem_blk (t : Fin cfg2.N) (i : S50000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v41).slice (win2_4.rect t)).set ↔ _
  rw [View.set_slice_whole, Rect.mem_set_unit]
  exact Iff.rfl

/-- The ten row blocks cover the array: row r lies in block r / 5000. -/
theorem covered (i : S50000x64.Idx) : ∃ t : Fin cfg2.N, (cfg2.win 4).flush t = true ∧ i ∈ ((cfg2.win 4).blk t).view.set := by
  have hi0 : (i 0).val < 50000 := (i 0).isLt
  have hi1 : (i 1).val < 64 := (i 1).isLt
  obtain ⟨t, ht⟩ := idx_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- The region's output array after its ten points: the second layer of its entry arrays. -/
theorem value (c : Dev nD) : (dat2 V c).arrAt 4 cfg2.N = outputLayer (agg V c) (nin V c) (wt V c) (bias V c) :=
  (dat2 V c).arrAt_eq_of_cover 4 _ (fun t _ => flushed_eq V c t) covered

end Cert.KernelIdeal.OutputRegion

end
-- ==== Proof.RefStages.lean ====
/-
  The reference program, stage by stage: its row scaling is `scaleRows`, its first layer `hiddenLayer` of its first
  aggregation, its result `outputLayer` of its second aggregation. The aggregations (a gather of rows followed by a
  scatter-add) stay as the reference's own terms; they are never read at an index.
-/
import proofs.«170609_j23914377904381_1_alg».proof.Defs
import proofs.«170609_j23914377904381_1_alg».proof.Proof.Gen.ReferenceIdeal.Run
import proofs.«170609_j23914377904381_1_alg».proof.Proof.Gen.ReferenceIdeal.Read
import proofs.«170609_j23914377904381_1_alg».proof.Proof.Stages
import Idealize.ShloMosaic.Lib.ValueIdx
import Idealize.ShloMosaic.PureOps.Ideal.Laws

noncomputable section

namespace Cert.ReferenceIdeal.Stages

open Cert.ReferenceIdeal Cert.ReferenceIdeal.Gen Cert.ReferenceIdeal.Read
open Idealize.ShloMosaic Idealize.ShloMosaic.TcCoe Idealize.ShloMosaic.ValueIdx Idealize.SL.Sem
open GraphConv

/-! ## The index maps of the reference's layout operations, by coordinates -/

theorem row_of_v17 (i : S50000x128.Idx) : idx_main_v17 i = ix2 (i 0) (0 : Fin 1) :=
  funext fun a => Fin.ext (by match a with | ⟨0, _⟩ => rfl | ⟨1, _⟩ => rfl)
theorem row_of_v29 (i : S50000x128.Idx) : idx_main_v29 i = ix2 (i 0) (0 : Fin 1) :=
  funext fun a => Fin.ext (by match a with | ⟨0, _⟩ => rfl | ⟨1, _⟩ => rfl)
theorem row_of_v36 (i : S50000x128.Idx) : idx_main_v36 i = ix2 (i 0) (0 : Fin 1) :=
  funext fun a => Fin.ext (by match a with | ⟨0, _⟩ => rfl | ⟨1, _⟩ => rfl)
theorem row_of_v48 (i : S50000x128.Idx) : idx_main_v48 i = ix2 (i 0) (0 : Fin 1) :=
  funext fun a => Fin.ext (by match a with | ⟨0, _⟩ => rfl | ⟨1, _⟩ => rfl)
theorem col_of_v33 (i : S50000x128.Idx) : idx_main_v33 i = ix2 (0 : Fin 1) (i 1) :=
  funext fun a => Fin.ext (by match a with | ⟨0, _⟩ => rfl | ⟨1, _⟩ => rfl)
theorem col_of_v52 (i : S50000x64.Idx) : idx_main_v52 i = ix2 (0 : Fin 1) (i 1) :=
  funext fun a => Fin.ext (by match a with | ⟨0, _⟩ => rfl | ⟨1, _⟩ => rfl)
theorem lhs_of_v31 (i : S50000x128.Idx) (k : Fin 128) : lidx_main_v31 i k = ix2 (i 0) k :=
  funext fun a => Fin.ext (by match a with | ⟨0, _⟩ => rfl | ⟨1, _⟩ => rfl)
theorem rhs_of_v31 (i : S50000x128.Idx) (k : Fin 128) : ridx_main_v31 i k = ix2 k (i 1) :=
  funext fun a => Fin.ext (by match a with | ⟨0, _⟩ => rfl | ⟨1, _⟩ => rfl)
theorem lhs_of_v50 (i : S50000x64.Idx) (k : Fin 128) : lidx_main_v50 i k = ix2 (i 0) k :=
  funext fun a => Fin.ext (by match a with | ⟨0, _⟩ => rfl | ⟨1, _⟩ => rfl)
theorem rhs_of_v50 (i : S50000x64.Idx) (k : Fin 128) : ridx_main_v50 i k = ix2 k (i 1) :=
  funext fun a => Fin.ext (by match a with | ⟨0, _⟩ => rfl | ⟨1, _⟩ => rfl)

/-! ## The three dense stages -/

/-- `h · n_out`: the reference's product with the spread column is the row scaling. -/
theorem scaled_eq (x0 : FVec Ideal S50000x128 .f32) (x5 : IVec S800000 32) :
    val_main_v18 (F := Ideal) x0 x5 = scaleRows x0 (val_main_v13 (F := Ideal) x5) := by
  funext i
  rw [val_main_v18_apply, val_main_v17_apply, row_of_v17]
  rfl

/-- The reference's first layer, up to the rescaling for the next gather, is `hiddenLayer` of its first aggregation. -/
theorem hidden_eq (x0 : FVec Ideal S50000x128 .f32) (x1 : FVec Ideal S128x128 .f32) (x2 : FVec Ideal S128 .f32) (x5 x6 : IVec S800000 32) :
    val_main_v37 (F := Ideal) x0 x1 x2 x5 x6
      = hiddenLayer (val_main_v28 (F := Ideal) x0 x5 x6) (val_main_v16 (F := Ideal) x6) x1 (val_main_v32 (F := Ideal) x2) (val_main_v13 (F := Ideal) x5) := by
  funext i
  rw [val_main_v37_apply, val_main_v36_apply, val_main_v35_apply, val_main_v34_apply, val_main_v31_apply, val_main_v33_apply,
    val_main_call0_v0_apply, val_main_call0_cst_apply, row_of_v36, col_of_v33]
  have hs : ∀ k : Fin 128, val_main_v30 (F := Ideal) x0 x5 x6 (lidx_main_v31 i k) * x1 (ridx_main_v31 i k)
      = (val_main_v28 (F := Ideal) x0 x5 x6 (ix2 (i 0) k) * val_main_v16 (F := Ideal) x6 (ix2 (i 0) (0 : Fin 1))) * x1 (ix2 k (i 1)) := fun k => by
    rw [val_main_v30_apply, val_main_v29_apply, row_of_v29, lhs_of_v31, rhs_of_v31]; rfl
  rw [Finset.sum_congr rfl fun k _ => hs k]
  rfl

/-- The reference's result is `outputLayer` of its second aggregation. -/
theorem output_eq (x0 : FVec Ideal S50000x128 .f32) (x1 : FVec Ideal S128x128 .f32) (x2 : FVec Ideal S128 .f32)
    (x3 : FVec Ideal S128x64 .f32) (x4 : FVec Ideal S64 .f32) (x5 x6 : IVec S800000 32) :
    val_main_v54 (F := Ideal) x0 x1 x2 x3 x4 x5 x6
      = outputLayer (val_main_v47 (F := Ideal) x0 x1 x2 x5 x6) (val_main_v16 (F := Ideal) x6) x3 (val_main_v51 (F := Ideal) x4) := by
  funext i
  rw [val_main_v54_apply, val_main_v53_apply, val_main_v50_apply, val_main_v52_apply,
    val_main_call1_v0_apply, val_main_call1_cst_apply, col_of_v52]
  have hs : ∀ k : Fin 128, val_main_v49 (F := Ideal) x0 x1 x2 x5 x6 (lidx_main_v50 i k) * x3 (ridx_main_v50 i k)
      = (val_main_v47 (F := Ideal) x0 x1 x2 x5 x6 (ix2 (i 0) k) * val_main_v16 (F := Ideal) x6 (ix2 (i 0) (0 : Fin 1))) * x3 (ix2 k (i 1)) := fun k => by
    rw [val_main_v49_apply, val_main_v48_apply, row_of_v48, lhs_of_v50, rhs_of_v50]; rfl
  rw [Finset.sum_congr rfl fun k _ => hs k]
  rfl

end Cert.ReferenceIdeal.Stages

end
-- ==== Proof.NetValue.lean ====
/-
  The idealized kernel's result as the reference's own term. The program is three pallas_calls among stretches of
  host operations; the buffers' contents at each boundary are a fold from the launch memory. Walking that fold:

    after the first stretch     the two degree norms are the reference's (the same scatter-adds, maximum and power);
    after the first region      its output is the features with every row times the out-degree norm;
    after the second stretch    the aggregation (the same gather and scatter-add, of the same array) is the reference's,
                                and the reshaped bias is the reference's spread bias;
    after the second region     its output is the reference's rescaled first layer;
    after the third stretch     the second aggregation is the reference's;
    after the third region      the result is the reference's.

  Every step either applies the same host operations to arrays already known equal, or is one of the three
  region lemmas joined to the reference's stage by the stage functions of `Stages.lean`.
-/
import proofs.«170609_j23914377904381_1_alg».proof.Proof.Gen.KernelIdeal.Frame
import proofs.«170609_j23914377904381_1_alg».proof.Proof.ScaleRegion
import proofs.«170609_j23914377904381_1_alg».proof.Proof.HiddenRegion
import proofs.«170609_j23914377904381_1_alg».proof.Proof.OutputRegion
import proofs.«170609_j23914377904381_1_alg».proof.Proof.RefStages
import Idealize.ShloMosaic.Lib.StableHlo.Run
import Idealize.ShloMosaic.Lib.ValueLayout

set_option maxRecDepth 16384

noncomputable section

namespace Cert.KernelIdeal.NetValue

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)
open GraphConv

variable (m : (ℓ : Loc nD τ sig) → Buf (Elt Ideal) ℓ) (ρ : Dev nD → PrngReg)

/-! ## The argument arrays as launched, at their literal types -/

abbrev a0 (c : Dev nD) : FVec Ideal S50000x128 .f32 := m ((c : Thread nD τ).loc main_arg0)
abbrev a1 (c : Dev nD) : FVec Ideal S128x128 .f32 := m ((c : Thread nD τ).loc main_arg1)
abbrev a2 (c : Dev nD) : FVec Ideal S128 .f32 := m ((c : Thread nD τ).loc main_arg2)
abbrev a3 (c : Dev nD) : FVec Ideal S128x64 .f32 := m ((c : Thread nD τ).loc main_arg3)
abbrev a4 (c : Dev nD) : FVec Ideal S64 .f32 := m ((c : Thread nD τ).loc main_arg4)
abbrev a5 (c : Dev nD) : IVec S800000 32 := m ((c : Thread nD τ).loc main_arg5)
abbrev a6 (c : Dev nD) : IVec S800000 32 := m ((c : Thread nD τ).loc main_arg6)

/-! ## After the first stretch of host operations: the two degree norms, and the arguments untouched -/

theorem W1_v13 (c : Dev nD) : W1 m ρ c (Proc.devRef .tc main_v13) = Cert.ReferenceIdeal.Read.val_main_v13 (F := Ideal) (a5 m c) := by
  show StableHlo.after hostOps0 (W0 m ρ c) (Proc.devRef .tc main_v13) = _
  after_results
  rfl
theorem W1_v16 (c : Dev nD) : W1 m ρ c (Proc.devRef .tc main_v16) = Cert.ReferenceIdeal.Read.val_main_v16 (F := Ideal) (a6 m c) := by
  show StableHlo.after hostOps0 (W0 m ρ c) (Proc.devRef .tc main_v16) = _
  after_results
  rfl
theorem W1_arg0 (c : Dev nD) : W1 m ρ c (Proc.devRef .tc main_arg0) = a0 m c := by
  show StableHlo.after hostOps0 (W0 m ρ c) (Proc.devRef .tc main_arg0) = _
  after_results
theorem W1_arg1 (c : Dev nD) : W1 m ρ c (Proc.devRef .tc main_arg1) = a1 m c := by
  show StableHlo.after hostOps0 (W0 m ρ c) (Proc.devRef .tc main_arg1) = _
  after_results
theorem W1_arg2 (c : Dev nD) : W1 m ρ c (Proc.devRef .tc main_arg2) = a2 m c := by
  show StableHlo.after hostOps0 (W0 m ρ c) (Proc.devRef .tc main_arg2) = _
  after_results
theorem W1_arg3 (c : Dev nD) : W1 m ρ c (Proc.devRef .tc main_arg3) = a3 m c := by
  show StableHlo.after hostOps0 (W0 m ρ c) (Proc.devRef .tc main_arg3) = _
  after_results
theorem W1_arg4 (c : Dev nD) : W1 m ρ c (Proc.devRef .tc main_arg4) = a4 m c := by
  show StableHlo.after hostOps0 (W0 m ρ c) (Proc.devRef .tc main_arg4) = _
  after_results
theorem W1_arg5 (c : Dev nD) : W1 m ρ c (Proc.devRef .tc main_arg5) = a5 m c := by
  show StableHlo.after hostOps0 (W0 m ρ c) (Proc.devRef .tc main_arg5) = _
  after_results
theorem W1_arg6 (c : Dev nD) : W1 m ρ c (Proc.devRef .tc main_arg6) = a6 m c := by
  show StableHlo.after hostOps0 (W0 m ρ c) (Proc.devRef .tc main_arg6) = _
  after_results

/-! ## After the first region: the scaled features; everything else as before -/

theorem W2_v17 (c : Dev nD) : W2 m ρ c (Proc.devRef .tc main_v17) = Cert.ReferenceIdeal.Read.val_main_v18 (F := Ideal) (a0 m c) (a5 m c) :=
  (W2_arr m ρ c 2).trans ((ScaleRegion.value (V1 m ρ) c).trans
    ((congr (congrArg scaleRows (W1_arg0 m ρ c)) (W1_v13 m ρ c)).trans (Cert.ReferenceIdeal.Stages.scaled_eq _ _).symm))
/-- The out-degree norm is an input array of the region: it is read, not written. -/
theorem W2_v13 (c : Dev nD) : W2 m ρ c (Proc.devRef .tc main_v13) = Cert.ReferenceIdeal.Read.val_main_v13 (F := Ideal) (a5 m c) :=
  ((W2_arr m ρ c 1).trans (((dat0 (V1 m ρ) c).arrAt_in 1 rfl _).trans (A_eq0 (V1 m ρ) c 1))).trans (W1_v13 m ρ c)
theorem W2_v16 (c : Dev nD) : W2 m ρ c (Proc.devRef .tc main_v16) = Cert.ReferenceIdeal.Read.val_main_v16 (F := Ideal) (a6 m c) :=
  (W2_of_ne m ρ c main_v16 (by decide)).trans (W1_v16 m ρ c)
theorem W2_arg1 (c : Dev nD) : W2 m ρ c (Proc.devRef .tc main_arg1) = a1 m c := (W2_of_ne m ρ c main_arg1 (by decide)).trans (W1_arg1 m ρ c)
theorem W2_arg2 (c : Dev nD) : W2 m ρ c (Proc.devRef .tc main_arg2) = a2 m c := (W2_of_ne m ρ c main_arg2 (by decide)).trans (W1_arg2 m ρ c)
theorem W2_arg3 (c : Dev nD) : W2 m ρ c (Proc.devRef .tc main_arg3) = a3 m c := (W2_of_ne m ρ c main_arg3 (by decide)).trans (W1_arg3 m ρ c)
theorem W2_arg4 (c : Dev nD) : W2 m ρ c (Proc.devRef .tc main_arg4) = a4 m c := (W2_of_ne m ρ c main_arg4 (by decide)).trans (W1_arg4 m ρ c)
theorem W2_arg5 (c : Dev nD) : W2 m ρ c (Proc.devRef .tc main_arg5) = a5 m c := (W2_of_ne m ρ c main_arg5 (by decide)).trans (W1_arg5 m ρ c)
theorem W2_arg6 (c : Dev nD) : W2 m ρ c (Proc.devRef .tc main_arg6) = a6 m c := (W2_of_ne m ρ c main_arg6 (by decide)).trans (W1_arg6 m ρ c)

/-! ## After the second stretch: the first aggregation and the bias as a row -/

/-- The bias reshaped to one row is the bias spread along the row's axis: both hold `b[q]` at `(0, q)`. -/
theorem bias_row128 (x : FVec Ideal S128 .f32) :
    shapeCast S1x128 x shapeCasts_S128_S1x128 = Cert.ReferenceIdeal.Read.val_main_v32 (F := Ideal) x := by
  funext i
  obtain ⟨u, q, rfl⟩ : ∃ (u : Fin 1) (q : Fin 128), i = ix2 u q := ⟨i 0, i 1, eq_ix2 i⟩
  rw [shapeCast_a_1a_apply, Cert.ReferenceIdeal.Read.val_main_v32_apply]
  exact congrArg x (funext fun a => Fin.ext (by match a with | ⟨0, _⟩ => rfl))

theorem W3_v27 (c : Dev nD) : W3 m ρ c (Proc.devRef .tc main_v27) = Cert.ReferenceIdeal.Read.val_main_v28 (F := Ideal) (a0 m c) (a5 m c) (a6 m c) := by
  show StableHlo.after hostOps1 (W2 m ρ c) (Proc.devRef .tc main_v27) = _
  after_results
  rw [W2_v17 m ρ c, W2_arg5 m ρ c, W2_arg6 m ρ c]
  rfl
theorem W3_v28 (c : Dev nD) : W3 m ρ c (Proc.devRef .tc main_v28) = Cert.ReferenceIdeal.Read.val_main_v32 (F := Ideal) (a2 m c) := by
  show StableHlo.after hostOps1 (W2 m ρ c) (Proc.devRef .tc main_v28) = _
  after_results
  rw [W2_arg2 m ρ c]
  exact bias_row128 (a2 m c)
theorem W3_v16 (c : Dev nD) : W3 m ρ c (Proc.devRef .tc main_v16) = Cert.ReferenceIdeal.Read.val_main_v16 (F := Ideal) (a6 m c) := by
  show StableHlo.after hostOps1 (W2 m ρ c) (Proc.devRef .tc main_v16) = _
  after_results
  exact W2_v16 m ρ c
theorem W3_v13 (c : Dev nD) : W3 m ρ c (Proc.devRef .tc main_v13) = Cert.ReferenceIdeal.Read.val_main_v13 (F := Ideal) (a5 m c) := by
  show StableHlo.after hostOps1 (W2 m ρ c) (Proc.devRef .tc main_v13) = _
  after_results
  exact W2_v13 m ρ c
theorem W3_arg1 (c : Dev nD) : W3 m ρ c (Proc.devRef .tc main_arg1) = a1 m c := by
  show StableHlo.after hostOps1 (W2 m ρ c) (Proc.devRef .tc main_arg1) = _
  after_results
  exact W2_arg1 m ρ c
theorem W3_arg3 (c : Dev nD) : W3 m ρ c (Proc.devRef .tc main_arg3) = a3 m c := by
  show StableHlo.after hostOps1 (W2 m ρ c) (Proc.devRef .tc main_arg3) = _
  after_results
  exact W2_arg3 m ρ c
theorem W3_arg4 (c : Dev nD) : W3 m ρ c (Proc.devRef .tc main_arg4) = a4 m c := by
  show StableHlo.after hostOps1 (W2 m ρ c) (Proc.devRef .tc main_arg4) = _
  after_results
  exact W2_arg4 m ρ c
theorem W3_arg5 (c : Dev nD) : W3 m ρ c (Proc.devRef .tc main_arg5) = a5 m c := by
  show StableHlo.after hostOps1 (W2 m ρ c) (Proc.devRef .tc main_arg5) = _
  after_results
  exact W2_arg5 m ρ c
theorem W3_arg6 (c : Dev nD) : W3 m ρ c (Proc.devRef .tc main_arg6) = a6 m c := by
  show StableHlo.after hostOps1 (W2 m ρ c) (Proc.devRef .tc main_arg6) = _
  after_results
  exact W2_arg6 m ρ c

/-! ## After the second region: the reference's rescaled first layer -/

theorem W4_v29 (c : Dev nD) : W4 m ρ c (Proc.devRef .tc main_v29)
    = Cert.ReferenceIdeal.Read.val_main_v37 (F := Ideal) (a0 m c) (a1 m c) (a2 m c) (a5 m c) (a6 m c) :=
  (W4_arr m ρ c 5).trans ((HiddenRegion.value (V3 m ρ) c).trans
    ((congr (congr (congr (congr (congrArg hiddenLayer (W3_v27 m ρ c)) (W3_v16 m ρ c)) (W3_arg1 m ρ c)) (W3_v28 m ρ c)) (W3_v13 m ρ c)).trans
      (Cert.ReferenceIdeal.Stages.hidden_eq _ _ _ _ _).symm))
/-- The in-degree norm is an input array of the region: it is read, not written. -/
theorem W4_v16 (c : Dev nD) : W4 m ρ c (Proc.devRef .tc main_v16) = Cert.ReferenceIdeal.Read.val_main_v16 (F := Ideal) (a6 m c) :=
  ((W4_arr m ρ c 1).trans (((dat1 (V3 m ρ) c).arrAt_in 1 rfl _).trans (A_eq1 (V3 m ρ) c 1))).trans (W3_v16 m ρ c)
theorem W4_arg3 (c : Dev nD) : W4 m ρ c (Proc.devRef .tc main_arg3) = a3 m c := (W4_of_ne m ρ c main_arg3 (by decide)).trans (W3_arg3 m ρ c)
theorem W4_arg4 (c : Dev nD) : W4 m ρ c (Proc.devRef .tc main_arg4) = a4 m c := (W4_of_ne m ρ c main_arg4 (by decide)).trans (W3_arg4 m ρ c)
theorem W4_arg5 (c : Dev nD) : W4 m ρ c (Proc.devRef .tc main_arg5) = a5 m c := (W4_of_ne m ρ c main_arg5 (by decide)).trans (W3_arg5 m ρ c)
theorem W4_arg6 (c : Dev nD) : W4 m ρ c (Proc.devRef .tc main_arg6) = a6 m c := (W4_of_ne m ρ c main_arg6 (by decide)).trans (W3_arg6 m ρ c)

/-! ## After the third stretch: the second aggregation and the second bias as a row -/

theorem bias_row64 (x : FVec Ideal S64 .f32) :
    shapeCast S1x64 x shapeCasts_S64_S1x64 = Cert.ReferenceIdeal.Read.val_main_v51 (F := Ideal) x := by
  funext i
  obtain ⟨u, q, rfl⟩ : ∃ (u : Fin 1) (q : Fin 64), i = ix2 u q := ⟨i 0, i 1, eq_ix2 i⟩
  rw [shapeCast_a_1a_apply, Cert.ReferenceIdeal.Read.val_main_v51_apply]
  exact congrArg x (funext fun a => Fin.ext (by match a with | ⟨0, _⟩ => rfl))

theorem W5_v39 (c : Dev nD) : W5 m ρ c (Proc.devRef .tc main_v39)
    = Cert.ReferenceIdeal.Read.val_main_v47 (F := Ideal) (a0 m c) (a1 m c) (a2 m c) (a5 m c) (a6 m c) := by
  show StableHlo.after hostOps2 (W4 m ρ c) (Proc.devRef .tc main_v39) = _
  after_results
  rw [W4_v29 m ρ c, W4_arg5 m ρ c, W4_arg6 m ρ c]
  rfl
theorem W5_v40 (c : Dev nD) : W5 m ρ c (Proc.devRef .tc main_v40) = Cert.ReferenceIdeal.Read.val_main_v51 (F := Ideal) (a4 m c) := by
  show StableHlo.after hostOps2 (W4 m ρ c) (Proc.devRef .tc main_v40) = _
  after_results
  rw [W4_arg4 m ρ c]
  exact bias_row64 (a4 m c)
theorem W5_v16 (c : Dev nD) : W5 m ρ c (Proc.devRef .tc main_v16) = Cert.ReferenceIdeal.Read.val_main_v16 (F := Ideal) (a6 m c) := by
  show StableHlo.after hostOps2 (W4 m ρ c) (Proc.devRef .tc main_v16) = _
  after_results
  exact W4_v16 m ρ c
theorem W5_arg3 (c : Dev nD) : W5 m ρ c (Proc.devRef .tc main_arg3) = a3 m c := by
  show StableHlo.after hostOps2 (W4 m ρ c) (Proc.devRef .tc main_arg3) = _
  after_results
  exact W4_arg3 m ρ c

/-! ## After the third region: the reference's result -/

/-- The result buffer at the last boundary holds the reference's result term of the launch arguments. -/
theorem result (c : Dev nD) : W6 m ρ c (Proc.devRef .tc main_v41)
    = Cert.ReferenceIdeal.Read.val_main_v54 (F := Ideal) (a0 m c) (a1 m c) (a2 m c) (a3 m c) (a4 m c) (a5 m c) (a6 m c) :=
  (W6_arr m ρ c 4).trans ((OutputRegion.value (V5 m ρ) c).trans
    ((congr (congr (congr (congrArg outputLayer (W5_v39 m ρ c)) (W5_v16 m ρ c)) (W5_arg3 m ρ c)) (W5_v40 m ρ c)).trans
      (Cert.ReferenceIdeal.Stages.output_eq _ _ _ _ _ _ _).symm))

end Cert.KernelIdeal.NetValue

end
-- ==== Proof.lean ====
/-
  Two graph-convolution layers (DGL's GraphConv with norm = 'both') on a graph of 50000 nodes and 800000 edges:

      out = ReLU( D_in^(-1/2) · A · D_out^(-1/2) · ReLU( D_in^(-1/2) · A · D_out^(-1/2) · h · W1 + b1 ) · W2 + b2 )

  where A adds each edge's source row into its destination row and the degrees are clamped below at 1. The kernel
  computes the degree norms and the two aggregations (gather, scatter-add) on the host exactly as the reference does,
  and the three dense pieces — the row scaling, the first layer with the rescaling for the next gather folded in, the
  second layer — as pallas_calls over ten blocks of 5000 rows. Over the extended reals a row block's matrix product
  into a zero accumulator is, row by row, the whole array's product, the bf16 conversions are the identity, and every
  other operation is applied in the same order on both sides, so the two results are one function of the arguments;
  no hypothesis on the inputs is used. The ideal pass rewrote nothing, so the idealization conjunct is `True`.
-/
import proofs.«170609_j23914377904381_1_alg».proof.Defs
import proofs.«170609_j23914377904381_1_alg».proof.Proof.Gen.Kernel
import proofs.«170609_j23914377904381_1_alg».proof.Proof.Gen.Kernel.Skeleton
import proofs.«170609_j23914377904381_1_alg».proof.Proof.Gen.Kernel.Launch
import proofs.«170609_j23914377904381_1_alg».proof.Proof.Gen.Kernel.Points
import proofs.«170609_j23914377904381_1_alg».proof.Proof.Gen.Kernel.Frame
import proofs.«170609_j23914377904381_1_alg».proof.Proof.Gen.KernelIdeal
import proofs.«170609_j23914377904381_1_alg».proof.Proof.Gen.KernelIdeal.Skeleton
import proofs.«170609_j23914377904381_1_alg».proof.Proof.Gen.KernelIdeal.Launch
import proofs.«170609_j23914377904381_1_alg».proof.Proof.Gen.KernelIdeal.Points
import proofs.«170609_j23914377904381_1_alg».proof.Proof.Gen.KernelIdeal.Frame
import proofs.«170609_j23914377904381_1_alg».proof.Proof.Gen.ReferenceIdeal
import proofs.«170609_j23914377904381_1_alg».proof.Proof.Gen.ReferenceIdeal.Run
import proofs.«170609_j23914377904381_1_alg».proof.Proof.Gen.ReferenceIdeal.Read
import proofs.«170609_j23914377904381_1_alg».proof.Proof.Gen.Pre_finite_inputs
import proofs.«170609_j23914377904381_1_alg».proof.Proof.ResultRun
import proofs.«170609_j23914377904381_1_alg».proof.Proof.NetValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result buffer at the reference's result term of the (agreeing) arguments. -/
theorem algebraic : Cert.algebraic_KernelIdeal_ReferenceIdeal := by
  intro m ρ m' ρ' _ hagree
  refine ⟨fun c => Cert.ReferenceIdeal.Read.val_main_v54 (F := Ideal)
      (Cert.KernelIdeal.NetValue.a0 m c) (Cert.KernelIdeal.NetValue.a1 m c) (Cert.KernelIdeal.NetValue.a2 m c) (Cert.KernelIdeal.NetValue.a3 m c)
      (Cert.KernelIdeal.NetValue.a4 m c) (Cert.KernelIdeal.NetValue.a5 m c) (Cert.KernelIdeal.NetValue.a6 m c), ?_, ?_⟩
  · exact (θ_run Cert.KernelIdeal.defs _ _).mono
      (fun r h c => ⟨(h c).1.trans (Cert.KernelIdeal.NetValue.result m ρ c), (h c).2⟩)
      (Cert.KernelIdeal.ResultRun.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v54_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
